-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2880 : Shape := ⟨2, ![8192, 2880]⟩
abbrev S25600 : Shape := ⟨1, ![25600]⟩
abbrev S_ : Shape := ⟨0, ![]⟩

class Facts : Prop where
  bcast_S_S8192x2880 : S_.BroadcastsInDim S8192x2880 (![] : Fin 0 → Fin S8192x2880.rank)
  reducesTo_S8192x2880_S_d0_1 : S8192x2880.ReducesTo [0, 1] S_
  h_S_ : 0 < S_.numel
  bcast_S_S25600 : S_.BroadcastsInDim S25600 (![] : Fin 0 → Fin S25600.rank)
  reducesTo_S25600_S_d0 : S25600.ReducesTo [0] S_

variable [Facts]

def fn {F : FTy → Type} [FloatOps F] (main_arg0 : FVec F S8192x2880 .f32) (main_arg1 : FVec F S25600 .f32) (main_arg2 : IVec S25600 32) (main_arg3 : IVec S25600 32) : IVec S_ 1 :=
  let main_v0 : FVec F S8192x2880 .f32 := Host.absf main_arg0
  let main_cst : FVec F S_ .f32 := constant S_ .f32 0x7F800000#32
  let main_v1 : FVec F S8192x2880 .f32 := broadcastInDim S8192x2880 ![] bcast_S_S8192x2880 main_cst
  let main_v2 : IVec S8192x2880 1 := cmpf .olt main_v0 main_v1
  let main_c : IVec S_ 1 := constantI S_ 1 1#1
  let main_v3 : IVec S_ 1 := (fun x v => Host.reduce IntOp.andi x v reducesTo_S8192x2880_S_d0_1 h_S_) main_v2 main_c
  let main_v4 : FVec F S25600 .f32 := Host.absf main_arg1
  let main_cst_0 : FVec F S_ .f32 := constant S_ .f32 0x7F800000#32
  let main_v5 : FVec F S25600 .f32 := broadcastInDim S25600 ![] bcast_S_S25600 main_cst_0
  let main_v6 : IVec S25600 1 := cmpf .olt main_v4 main_v5
  let main_c_1 : IVec S_ 1 := constantI S_ 1 1#1
  let main_v7 : IVec S_ 1 := (fun x v => Host.reduce IntOp.andi x v reducesTo_S25600_S_d0 h_S_) main_v6 main_c_1
  let main_v8 : IVec S_ 1 := andi main_v3 main_v7
  let main_c_2 : IVec S_ 32 := constantI S_ 32 4294964416#32
  let main_v9 : IVec S25600 32 := broadcastInDim S25600 ![] bcast_S_S25600 main_c_2
  let main_v10 : IVec S25600 1 := cmpi .sge main_arg2 main_v9
  let main_c_3 : IVec S_ 32 := constantI S_ 32 2880#32
  let main_v11 : IVec S25600 32 := broadcastInDim S25600 ![] bcast_S_S25600 main_c_3
  let main_v12 : IVec S25600 1 := cmpi .slt main_arg2 main_v11
  let main_v13 : IVec S25600 1 := andi main_v10 main_v12
  let main_c_4 : IVec S_ 1 := constantI S_ 1 1#1
  let main_v14 : IVec S_ 1 := (fun x v => Host.reduce IntOp.andi x v reducesTo_S25600_S_d0 h_S_) main_v13 main_c_4
  let main_v15 : IVec S_ 1 := andi main_v8 main_v14
  main_v15
-- ==== Kernel.lean ====
abbrev S8192x2880 : Shape := ⟨2, ![8192, 2880]⟩
abbrev S25600 : Shape := ⟨1, ![25600]⟩
abbrev S_ : Shape := ⟨0, ![]⟩
abbrev S2880x1600 : Shape := ⟨2, ![2880, 1600]⟩
abbrev S25600x1 : Shape := ⟨2, ![25600, 1]⟩
abbrev S25600x2 : Shape := ⟨2, ![25600, 2]⟩
abbrev S8192x1600 : Shape := ⟨2, ![8192, 1600]⟩
abbrev S256x2880 : Shape := ⟨2, ![256, 2880]⟩
abbrev S256x1600 : Shape := ⟨2, ![256, 1600]⟩

abbrev nBuf : Space → Nat
  | .hbm => 26
  | .vmem => 5
  | .smem => 0
  | _ => 0

abbrev bufTy : (tb : Table) → Fin (tcTables nBuf tb) → BufTy
  | .hbm, ⟨0, _⟩ => ⟨S8192x2880, .f32⟩
  | .hbm, ⟨1, _⟩ => ⟨S25600, .f32⟩
  | .hbm, ⟨2, _⟩ => ⟨S25600, .i32⟩
  | .hbm, ⟨3, _⟩ => ⟨S25600, .i32⟩
  | .hbm, ⟨4, _⟩ => ⟨S_, .f32⟩
  | .hbm, ⟨5, _⟩ => ⟨S2880x1600, .f32⟩
  | .hbm, ⟨6, _⟩ => ⟨S_, .i32⟩
  | .hbm, ⟨7, _⟩ => ⟨S25600, .i32⟩
  | .hbm, ⟨8, _⟩ => ⟨S25600, .i1⟩
  | .hbm, ⟨9, _⟩ => ⟨S_, .i32⟩
  | .hbm, ⟨10, _⟩ => ⟨S25600, .i32⟩
  | .hbm, ⟨11, _⟩ => ⟨S25600, .i32⟩
  | .hbm, ⟨12, _⟩ => ⟨S25600, .i32⟩
  | .hbm, ⟨13, _⟩ => ⟨S_, .i32⟩
  | .hbm, ⟨14, _⟩ => ⟨S25600, .i32⟩
  | .hbm, ⟨15, _⟩ => ⟨S25600, .i1⟩
  | .hbm, ⟨16, _⟩ => ⟨S_, .i32⟩
  | .hbm, ⟨17, _⟩ => ⟨S25600, .i32⟩
  | .hbm, ⟨18, _⟩ => ⟨S25600, .i32⟩
  | .hbm, ⟨19, _⟩ => ⟨S25600, .i32⟩
  | .hbm, ⟨20, _⟩ => ⟨S25600x1, .i32⟩
  | .hbm, ⟨21, _⟩ => ⟨S25600x1, .i32⟩
  | .hbm, ⟨22, _⟩ => ⟨S25600x2, .i32⟩
  | .hbm, ⟨23, _⟩ => ⟨S2880x1600, .f32⟩
  | .hbm, ⟨24, _⟩ => ⟨S2880x1600, .bf16⟩
  | .hbm, ⟨25, _⟩ => ⟨S8192x1600, .f32⟩
  | .local _ .vmem, ⟨0, _⟩ => ⟨S256x2880, .f32⟩
  | .local _ .vmem, ⟨1, _⟩ => ⟨S256x2880, .f32⟩
  | .local _ .vmem, ⟨2, _⟩ => ⟨S2880x1600, .bf16⟩
  | .local _ .vmem, ⟨3, _⟩ => ⟨S256x1600, .f32⟩
  | .local _ .vmem, ⟨4, _⟩ => ⟨S256x1600, .f32⟩
  | _, _ => ⟨S8192x2880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2880 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2880x1600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2880x1600 : S_.BroadcastsInDim S2880x1600 (![] : Fin 0 → Fin S2880x1600.rank)
  bcast_S_S25600 : S_.BroadcastsInDim S25600 (![] : Fin 0 → Fin S25600.rank)
  bcast_S25600_S25600x1_0 : S25600.BroadcastsInDim S25600x1 (![0] : Fin 1 → Fin S25600x1.rank)
  concatenates_S25600x1_S25600x1_S25600x2_d1 : Shape.Concatenates [S25600x1, S25600x1] S25600x2 1
  bitsLt_bf16_f32 : FTy.bits .bf16 < FTy.bits .f32
  inb_S256x2880_S256x2880_0_0 : ∀ a, (![0, 0] : Fin 2 → Nat) a + S256x2880.size a ≤ S256x2880.size a
  h_S256x2880 : 0 < S256x2880.numel
  inb_S2880x1600_S2880x1600_0_0 : ∀ a, (![0, 0] : Fin 2 → Nat) a + S2880x1600.size a ≤ S2880x1600.size a
  h_S2880x1600 : 0 < S2880x1600.numel
  shapeCasts_S2880x1600_S2880x1600 : S2880x1600.ShapeCasts S2880x1600
  inb_S256x1600_S256x1600_0_0 : ∀ a, (![0, 0] : Fin 2 → Nat) a + S256x1600.size a ≤ S256x1600.size a
  h_S256x1600 : 0 < S256x1600.numel
  scatter_S2880x1600_S25600x2_S25600_n_01_01_1_wf : ScatterDims.WF S2880x1600 S25600x2 S25600 [] [0, 1] [0, 1] 1
  dot_S256x2880_S2880x1600_S256x1600_1_0_0_1_n_n_wf : DotDims.WF S256x2880 S2880x1600 S256x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2880.size a ≤ S8192x2880.size a
  hwx0_0 : ∀ i : grid0.Coords, EltTy.bits .f32 = 32 ∨ (Rect.block (s := S8192x2880) S256x2880.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2880x1600.size a ≤ S2880x1600.size a
  hwx0_1 : ∀ i : grid0.Coords, EltTy.bits .bf16 = 32 ∨ (Rect.block (s := S2880x1600) S2880x1600.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1600.size a ≤ S8192x1600.size a
  hwx0_2 : ∀ i : grid0.Coords, EltTy.bits .f32 = 32 ∨ (Rect.block (s := S8192x1600) S256x1600.size (cc0_transform_2 i) (hinb0_2 i)).WholeWords (EltTy.packing .f32)

variable [Facts₀]

def scatter_S2880x1600_S25600x2_S25600_n_01_01_1 : ScatterDims S2880x1600 S25600x2 S25600 where
  updateWindowDims := []
  insertedWindowDims := [0, 1]
  scatterDimsToOperandDims := [0, 1]
  indexVectorDim := 1
  wf := scatter_S2880x1600_S25600x2_S25600_n_01_01_1_wf
def dot_S256x2880_S2880x1600_S256x1600_1_0_0_1_n_n : DotDims S256x2880 S2880x1600 S256x1600 where
  lhsContracting := [1]
  rhsContracting := [0]
  lhsNonContracting := [0]
  rhsNonContracting := [1]
  lhsBatch := []
  rhsBatch := []
  wf := dot_S256x2880_S2880x1600_S256x1600_1_0_0_1_n_n_wf

abbrev win0_0 : Pipeline.Window sig grid0 :=
  Pipeline.Window.ofSpec (Memref.whole main_arg0) S256x2880.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2880x1600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S256x1600.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2880 : Shape := ⟨2, ![8192, 2880]⟩
abbrev S25600 : Shape := ⟨1, ![25600]⟩
abbrev S_ : Shape := ⟨0, ![]⟩
abbrev S25600x1 : Shape := ⟨2, ![25600, 1]⟩
abbrev S8192x25600 : Shape := ⟨2, ![8192, 25600]⟩
abbrev S1x25600 : Shape := ⟨2, ![1, 25600]⟩
abbrev S8192x1600 : Shape := ⟨2, ![8192, 1600]⟩

abbrev nBuf : Space → Nat
  | .hbm => 27
  | .vmem => 0
  | .smem => 0
  | _ => 0

abbrev bufTy : (tb : Table) → Fin (tcTables nBuf tb) → BufTy
  | .hbm, ⟨0, _⟩ => ⟨S8192x2880, .f32⟩
  | .hbm, ⟨1, _⟩ => ⟨S25600, .f32⟩
  | .hbm, ⟨2, _⟩ => ⟨S25600, .i32⟩
  | .hbm, ⟨3, _⟩ => ⟨S25600, .i32⟩
  | .hbm, ⟨4, _⟩ => ⟨S_, .i32⟩
  | .hbm, ⟨5, _⟩ => ⟨S25600, .i32⟩
  | .hbm, ⟨6, _⟩ => ⟨S25600, .i1⟩
  | .hbm, ⟨7, _⟩ => ⟨S_, .i32⟩
  | .hbm, ⟨8, _⟩ => ⟨S25600, .i32⟩
  | .hbm, ⟨9, _⟩ => ⟨S25600, .i32⟩
  | .hbm, ⟨10, _⟩ => ⟨S25600, .i32⟩
  | .hbm, ⟨11, _⟩ => ⟨S25600x1, .i32⟩
  | .hbm, ⟨12, _⟩ => ⟨S8192x25600, .f32⟩
  | .hbm, ⟨13, _⟩ => ⟨S1x25600, .f32⟩
  | .hbm, ⟨14, _⟩ => ⟨S8192x25600, .f32⟩
  | .hbm, ⟨15, _⟩ => ⟨S8192x25600, .f32⟩
  | .hbm, ⟨16, _⟩ => ⟨S_, .f32⟩
  | .hbm, ⟨17, _⟩ => ⟨S8192x1600, .f32⟩
  | .hbm, ⟨18, _⟩ => ⟨S_, .i32⟩
  | .hbm, ⟨19, _⟩ => ⟨S25600, .i32⟩
  | .hbm, ⟨20, _⟩ => ⟨S25600, .i1⟩
  | .hbm, ⟨21, _⟩ => ⟨S_, .i32⟩
  | .hbm, ⟨22, _⟩ => ⟨S25600, .i32⟩
  | .hbm, ⟨23, _⟩ => ⟨S25600, .i32⟩
  | .hbm, ⟨24, _⟩ => ⟨S25600, .i32⟩
  | .hbm, ⟨25, _⟩ => ⟨S25600x1, .i32⟩
  | .hbm, ⟨26, _⟩ => ⟨S8192x1600, .f32⟩
  | _, _ => ⟨S8192x2880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S25600 : S_.BroadcastsInDim S25600 (![] : Fin 0 → Fin S25600.rank)
  bcast_S25600_S25600x1_0 : S25600.BroadcastsInDim S25600x1 (![0] : Fin 1 → Fin S25600x1.rank)
  bcast_S25600_S1x25600_1 : S25600.BroadcastsInDim S1x25600 (![1] : Fin 1 → Fin S1x25600.rank)
  bcast_S1x25600_S8192x25600_0_1 : S1x25600.BroadcastsInDim S8192x25600 (![0, 1] : Fin 2 → Fin S8192x25600.rank)
  bcast_S_S8192x1600 : S_.BroadcastsInDim S8192x1600 (![] : Fin 0 → Fin S8192x1600.rank)
  gather_S8192x2880_S25600x1_S8192x25600_0_1_n_n_1_1_81921_wf : GatherDims.WF S8192x2880 S25600x1 S8192x25600 [0] [1] [] [1] [] 1 ![8192, 1]
  scatter_S8192x1600_S25600x1_S8192x25600_0_1_1_1_wf : ScatterDims.WF S8192x1600 S25600x1 S8192x25600 [0] [1] [1] 1

variable [Facts₀]

def gather_S8192x2880_S25600x1_S8192x25600_0_1_n_n_1_1_81921 : GatherDims S8192x2880 S25600x1 S8192x25600 where
  offsetDims := [0]
  collapsedSliceDims := [1]
  operandBatchingDims := []
  startIndicesBatchingDims := []
  startIndexMap := [1]
  indexVectorDim := 1
  sliceSizes := ![8192, 1]
  wf := gather_S8192x2880_S25600x1_S8192x25600_0_1_n_n_1_1_81921_wf
def scatter_S8192x1600_S25600x1_S8192x25600_0_1_1_1 : ScatterDims S8192x1600 S25600x1 S8192x25600 where
  updateWindowDims := [0]
  insertedWindowDims := [1]
  scatterDimsToOperandDims := [1]
  indexVectorDim := 1
  wf := scatter_S8192x1600_S25600x1_S8192x25600_0_1_1_1_wf

class Facts : Prop extends Facts₀ where

variable [Facts]
-- ==== Proof.LibScatterAdd.lean ====
/-
  Array indexing's accumulating scatter and column gather, read at one index over the extended reals.

  Three host operations are read here, each for operands of any extents.

  * `m.at[rows, cols].add(c)` on a matrix `m : [A, B]` with one (row, column) pair per coefficient: entry `(a, b)` of the
    result is `m (a, b)` plus the sum of the coefficients `c k` whose pair, read as signed words, is exactly `(a, b)`.
    A pair with a component outside the matrix names no entry, so its coefficient is dropped.
  * `z.at[:, cols].add(u)` on `z : [R, B]` with one column per column of `u : [R, n]`: entry `(r, b)` of the result is
    `z (r, b)` plus the sum of the `u (r, k)` whose column word is `b`; a column outside `z` is dropped whole.
  * `x[:, cols]` on `x : [R, A]`: entry `(r, k)` of the result is `x (r, cols k)` with the column read as a signed word
    and clamped into `[0, A - 1]`.

  Each is proved by computing, coordinate by coordinate, the operand index the operation's dimension numbers send an
  update (or a result) index to.
-/
import Idealize.ShloMosaic.PureOps.Ideal
import Idealize.ShloMosaic.Lib.ValueIdx
import Idealize.ShloMosaic.Lib.ValueIdxRank1

noncomputable section

namespace Cert.LibScatterAdd

open Idealize.ShloMosaic Idealize.ShloMosaic.ValueIdx
open scoped BigOperators

/-! ## Where an update lands in a matrix, from the two coordinates of its landing point -/

/-- An update lands on entry `(a, b)` of an `[A, B]` operand exactly when the two coordinates of its landing point
    (window start plus window coordinate, as integers) are `a` and `b`. -/
theorem resultIdx?_matrix_iff {A B : Nat} {si u : Shape} (d : ScatterDims (⟨2, ![A, B]⟩ : Shape) si u) {w : Nat}
    (j : u.Idx) (idx : IVec si w) (p q : ℤ)
    (h0 : d.start j idx 0 + (d.window j 0 : ℤ) = p) (h1 : d.start j idx 1 + (d.window j 1 : ℤ) = q)
    (a : Fin A) (b : Fin B) :
    d.resultIdx? j idx = some (ix2 a b) ↔ p = (a.val : ℤ) ∧ q = (b.val : ℤ) := by
  have hall : ∀ x : Fin 2, x = 0 ∨ x = 1 := by decide
  have ha := a.isLt
  have hb := b.isLt
  unfold ScatterDims.resultIdx?
  split
  · next h =>
    have g0 := h 0
    have g1 := h 1
    rw [h0] at g0
    rw [h1] at g1
    constructor
    · intro e
      have e' := Option.some.inj e
      have e0 : (d.start j idx 0 + (d.window j 0 : ℤ)).toNat = a.val := congrArg Fin.val (congrFun e' 0)
      have e1 : (d.start j idx 1 + (d.window j 1 : ℤ)).toNat = b.val := congrArg Fin.val (congrFun e' 1)
      rw [h0] at e0
      rw [h1] at e1
      omega
    · rintro ⟨hp, hq⟩
      congr 1
      funext x
      rcases hall x with rfl | rfl
      · apply Fin.ext
        show (d.start j idx 0 + (d.window j 0 : ℤ)).toNat = a.val
        rw [h0]; omega
      · apply Fin.ext
        show (d.start j idx 1 + (d.window j 1 : ℤ)).toNat = b.val
        rw [h1]; omega
  · next h =>
    constructor
    · intro e; exact absurd e (by simp)
    · rintro ⟨hp, hq⟩
      exfalso
      apply h
      intro x
      rcases hall x with rfl | rfl
      · rw [h0, hp]
        show 0 ≤ (a.val : ℤ) ∧ (a.val : ℤ) < ((A : Nat) : ℤ)
        omega
      · rw [h1, hq]
        show 0 ≤ (b.val : ℤ) ∧ (b.val : ℤ) < ((B : Nat) : ℤ)
        omega

/-! ## One (row, column) pair per coefficient: `m.at[rows, cols].add(c)` -/

/-- The dimension numbers of `m.at[rows, cols].add(c)`: operand `[A, B]`, index pairs `[n, 2]`, coefficients `[n]`; both
    operand axes inserted, the pair's two components naming them in order. -/
abbrev pointDims (A B n : Nat) (wf : ScatterDims.WF ⟨2, ![A, B]⟩ ⟨2, ![n, 2]⟩ ⟨1, ![n]⟩ [] [0, 1] [0, 1] 1) :
    ScatterDims ⟨2, ![A, B]⟩ ⟨2, ![n, 2]⟩ ⟨1, ![n]⟩ where
  updateWindowDims := []
  insertedWindowDims := [0, 1]
  scatterDimsToOperandDims := [0, 1]
  indexVectorDim := 1
  wf := wf

section Point
variable {A B n : Nat} (wf : ScatterDims.WF ⟨2, ![A, B]⟩ ⟨2, ![n, 2]⟩ ⟨1, ![n]⟩ [] [0, 1] [0, 1] 1)

/-- Coefficient `k`'s landing row is the first component of its pair, read signed. -/
theorem pointDims_start0 (k : Fin n) (idx : IVec ⟨2, ![n, 2]⟩ 32) :
    (pointDims A B n wf).start (ix1 k) idx 0 = (idx (ix2 k 0)).toInt := by
  unfold ScatterDims.start
  rw [dif_pos (show (0 : Fin 2) ∈ ([0, 1] : List (Fin 2)) from by decide)]
  congr 2
  funext b
  refine Fin.ext ?_
  match b with
  | ⟨0, _⟩ => rfl
  | ⟨1, _⟩ => rfl

/-- Coefficient `k`'s landing column is the second component of its pair, read signed. -/
theorem pointDims_start1 (k : Fin n) (idx : IVec ⟨2, ![n, 2]⟩ 32) :
    (pointDims A B n wf).start (ix1 k) idx 1 = (idx (ix2 k 1)).toInt := by
  unfold ScatterDims.start
  rw [dif_pos (show (1 : Fin 2) ∈ ([0, 1] : List (Fin 2)) from by decide)]
  congr 2
  funext b
  refine Fin.ext ?_
  match b with
  | ⟨0, _⟩ => rfl
  | ⟨1, _⟩ => rfl

/-- Both operand axes are inserted: a coefficient has no window coordinate. -/
theorem pointDims_window (j : (⟨1, ![n]⟩ : Shape).Idx) (a : Fin 2) : (pointDims A B n wf).window j a = 0 := by
  unfold ScatterDims.window
  have hk : a ∉ (pointDims A B n wf).sKept :=
    show a ∉ (List.finRange 2).filter (fun x => x ∉ ([0, 1] : List (Fin 2))) from by revert a; decide
  rw [dif_neg hk]

/-- Coefficient `k` lands on entry `(a, b)` exactly when its pair, read signed, is `(a, b)`. -/
theorem pointDims_resultIdx?_iff (k : Fin n) (idx : IVec ⟨2, ![n, 2]⟩ 32) (a : Fin A) (b : Fin B) :
    (pointDims A B n wf).resultIdx? (ix1 k) idx = some (ix2 a b)
      ↔ (idx (ix2 k 0)).toInt = (a.val : ℤ) ∧ (idx (ix2 k 1)).toInt = (b.val : ℤ) :=
  resultIdx?_matrix_iff (pointDims A B n wf) (ix1 k) idx _ _
    (by rw [pointDims_start0, pointDims_window]; exact Int.add_zero _)
    (by rw [pointDims_start1, pointDims_window]; exact Int.add_zero _) a b

/-- THE POINT SCATTER AT AN ENTRY: the operand's entry plus the coefficients whose pair names the entry. -/
theorem hostScatterAdd_point_apply (m : (⟨2, ![A, B]⟩ : Shape).Idx → EReal) (idx : IVec ⟨2, ![n, 2]⟩ 32)
    (c : (⟨1, ![n]⟩ : Shape).Idx → EReal) (a : Fin A) (b : Fin B) :
    Ideal.hostScatterAdd (pointDims A B n wf) m idx c (ix2 a b)
      = m (ix2 a b) + ∑ k : Fin n,
          if (idx (ix2 k 0)).toInt = (a.val : ℤ) ∧ (idx (ix2 k 1)).toInt = (b.val : ℤ) then c (ix1 k) else 0 := by
  unfold Ideal.hostScatterAdd
  congr 1
  rw [Finset.sum_filter, ← Equiv.sum_comp (idxEquiv1 (n := n)).symm]
  exact Finset.sum_congr rfl fun k _ => if_congr (pointDims_resultIdx?_iff wf k idx a b) rfl rfl

end Point

/-! ## One column per update column: `z.at[:, cols].add(u)` -/

/-- The dimension numbers of `z.at[:, cols].add(u)`: operand `[R, B]`, column indices `[n, 1]`, updates `[R, n]`; the
    update's row axis is its window, the operand's column axis is inserted and named by the index. -/
abbrev columnDims (R B n : Nat) (wf : ScatterDims.WF ⟨2, ![R, B]⟩ ⟨2, ![n, 1]⟩ ⟨2, ![R, n]⟩ [0] [1] [1] 1) :
    ScatterDims ⟨2, ![R, B]⟩ ⟨2, ![n, 1]⟩ ⟨2, ![R, n]⟩ where
  updateWindowDims := [0]
  insertedWindowDims := [1]
  scatterDimsToOperandDims := [1]
  indexVectorDim := 1
  wf := wf

section Column
variable {R B n : Nat} (wf : ScatterDims.WF ⟨2, ![R, B]⟩ ⟨2, ![n, 1]⟩ ⟨2, ![R, n]⟩ [0] [1] [1] 1)

/-- No index component names the row axis: the window starts at row 0. -/
theorem columnDims_start0 (j : (⟨2, ![R, n]⟩ : Shape).Idx) (idx : IVec ⟨2, ![n, 1]⟩ 32) :
    (columnDims R B n wf).start j idx 0 = 0 := by
  unfold ScatterDims.start
  rw [dif_neg (show (0 : Fin 2) ∉ ([1] : List (Fin 2)) from by decide)]

/-- Update `(r, k)`'s landing column is column index `k`, read signed. -/
theorem columnDims_start1 (r : Fin R) (k : Fin n) (idx : IVec ⟨2, ![n, 1]⟩ 32) :
    (columnDims R B n wf).start (ix2 r k) idx 1 = (idx (ix2 k 0)).toInt := by
  unfold ScatterDims.start
  rw [dif_pos (show (1 : Fin 2) ∈ ([1] : List (Fin 2)) from by decide)]
  congr 2
  funext b
  refine Fin.ext ?_
  match b with
  | ⟨0, _⟩ => rfl
  | ⟨1, _⟩ => rfl

/-- Update `(r, k)`'s window coordinate on the row axis is `r`; -/
theorem columnDims_window0 (r : Fin R) (k : Fin n) : (columnDims R B n wf).window (ix2 r k) 0 = r.val := by
  unfold ScatterDims.window
  have hk : (0 : Fin 2) ∈ (columnDims R B n wf).sKept :=
    show (0 : Fin 2) ∈ (List.finRange 2).filter (fun x => x ∉ ([1] : List (Fin 2))) from by decide
  rw [dif_pos hk]
  rfl

/-- and it has none on the column axis, which is inserted. -/
theorem columnDims_window1 (j : (⟨2, ![R, n]⟩ : Shape).Idx) : (columnDims R B n wf).window j 1 = 0 := by
  unfold ScatterDims.window
  have hk : (1 : Fin 2) ∉ (columnDims R B n wf).sKept :=
    show (1 : Fin 2) ∉ (List.finRange 2).filter (fun x => x ∉ ([1] : List (Fin 2))) from by decide
  rw [dif_neg hk]

/-- Update `(r', k)` lands on entry `(r, b)` exactly when `r' = r` and column index `k`, read signed, is `b`. -/
theorem columnDims_resultIdx?_iff (r' : Fin R) (k : Fin n) (idx : IVec ⟨2, ![n, 1]⟩ 32) (r : Fin R) (b : Fin B) :
    (columnDims R B n wf).resultIdx? (ix2 r' k) idx = some (ix2 r b)
      ↔ r' = r ∧ (idx (ix2 k 0)).toInt = (b.val : ℤ) := by
  rw [resultIdx?_matrix_iff (columnDims R B n wf) (ix2 r' k) idx (r'.val : ℤ) (idx (ix2 k 0)).toInt
    (by rw [columnDims_start0, columnDims_window0]; exact Int.zero_add _)
    (by rw [columnDims_start1, columnDims_window1]; exact Int.add_zero _) r b]
  constructor
  · rintro ⟨h1, h2⟩; exact ⟨Fin.ext (by omega), h2⟩
  · rintro ⟨rfl, h2⟩; exact ⟨rfl, h2⟩

/-- THE COLUMN SCATTER AT AN ENTRY: the operand's entry plus the update entries of the same row whose column index
    names the entry's column. -/
theorem hostScatterAdd_column_apply (z : (⟨2, ![R, B]⟩ : Shape).Idx → EReal) (idx : IVec ⟨2, ![n, 1]⟩ 32)
    (u : (⟨2, ![R, n]⟩ : Shape).Idx → EReal) (r : Fin R) (b : Fin B) :
    Ideal.hostScatterAdd (columnDims R B n wf) z idx u (ix2 r b)
      = z (ix2 r b) + ∑ k : Fin n, if (idx (ix2 k 0)).toInt = (b.val : ℤ) then u (ix2 r k) else 0 := by
  unfold Ideal.hostScatterAdd
  congr 1
  rw [Finset.sum_filter, sum_idx2, Finset.sum_comm]
  refine Finset.sum_congr rfl fun k _ => ?_
  rw [Finset.sum_congr rfl fun r' _ => if_congr (columnDims_resultIdx?_iff wf r' k idx r b) rfl rfl]
  by_cases hk : (idx (ix2 k 0)).toInt = (b.val : ℤ)
  · simp only [hk, and_true, if_true]
    exact (Finset.sum_ite_eq' Finset.univ r fun r' => u (ix2 r' k)).trans (if_pos (Finset.mem_univ r))
  · simp only [hk, and_false, if_false]
    exact Finset.sum_const_zero

end Column

/-! ## A column gather: `x[:, cols]` -/

/-- The dimension numbers of `x[:, cols]`: operand `[R, A]`, column indices `[n, 1]`, result `[R, n]`; the result's row
    axis is the slice's offset axis (whole rows of height `R`, width 1), the operand's column axis is collapsed and named
    by the index. -/
abbrev columnGatherDims (R A n : Nat)
    (wf : GatherDims.WF ⟨2, ![R, A]⟩ ⟨2, ![n, 1]⟩ ⟨2, ![R, n]⟩ [0] [1] [] [1] [] 1 ![R, 1]) :
    GatherDims ⟨2, ![R, A]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- THE COLUMN GATHER AT AN ENTRY: `x` at the same row and at column index `k` read signed and clamped into
    `[0, A - 1]`. -/
theorem gather_column_apply {α : Type} {R A n : Nat} (hA : 0 < A)
    (wf : GatherDims.WF ⟨2, ![R, A]⟩ ⟨2, ![n, 1]⟩ ⟨2, ![R, n]⟩ [0] [1] [] [1] [] 1 ![R, 1])
    (x : (⟨2, ![R, A]⟩ : Shape).Idx → α) (idx : IVec ⟨2, ![n, 1]⟩ 32) (r : Fin R) (k : Fin n) :
    Host.gather (columnGatherDims R A n wf) x idx (ix2 r k)
      = x (ix2 r ⟨min (idx (ix2 k 0)).toInt.toNat (A - 1), by omega⟩) := by
  unfold Host.gather
  congr 1
  funext a
  refine Fin.ext ?_
  show (columnGatherDims R A n wf).start (ix2 r k) idx a + (columnGatherDims R A n wf).batchCoord (ix2 r k) a
      + (columnGatherDims R A n wf).offCoord (ix2 r k) a = _
  rw [GatherDims.batchCoord_eq_zero _ _ _ List.not_mem_nil, Nat.add_zero]
  match a with
  | ⟨0, _⟩ =>
    have hs : (columnGatherDims R A n wf).start (ix2 r k) idx (0 : Fin 2) = 0 := by
      unfold GatherDims.start
      rw [dif_neg (show (0 : Fin 2) ∉ ([1] : List (Fin 2)) from by decide)]
    have ho : (columnGatherDims R A n wf).offCoord (ix2 r k) (0 : Fin 2) = r.val := by
      unfold GatherDims.offCoord
      have hk : (0 : Fin 2) ∈ (columnGatherDims R A n wf).sKept :=
        show (0 : Fin 2) ∈ (List.finRange 2).filter (fun x => x ∉ (([1] : List (Fin 2)) ++ ([] : List (Fin 2)))) from by decide
      rw [dif_pos hk]
      rfl
    show (columnGatherDims R A n wf).start (ix2 r k) idx (0 : Fin 2)
        + (columnGatherDims R A n wf).offCoord (ix2 r k) (0 : Fin 2) = r.val
    rw [hs, ho, Nat.zero_add]
  | ⟨1, _⟩ =>
    have ho : (columnGatherDims R A n wf).offCoord (ix2 r k) (1 : Fin 2) = 0 := by
      unfold GatherDims.offCoord
      have hk : (1 : Fin 2) ∉ (columnGatherDims R A n wf).sKept :=
        show (1 : Fin 2) ∉ (List.finRange 2).filter (fun x => x ∉ (([1] : List (Fin 2)) ++ ([] : List (Fin 2)))) from by decide
      rw [dif_neg hk]
    have hs : (columnGatherDims R A n wf).start (ix2 r k) idx (1 : Fin 2)
        = min (idx (ix2 k 0)).toInt.toNat (A - 1) := by
      unfold GatherDims.start
      rw [dif_pos (show (1 : Fin 2) ∈ ([1] : List (Fin 2)) from by decide)]
      have hsi : (columnGatherDims R A n wf).siIdx (ix2 r k)
          ⟨List.idxOf (1 : Fin 2) (columnGatherDims R A n wf).startIndexMap,
            List.idxOf_lt_length_iff.2 (show (1 : Fin 2) ∈ ([1] : List (Fin 2)) from by decide)⟩ = ix2 k 0 := by
        funext b; refine Fin.ext ?_
        match b with
        | ⟨0, _⟩ => rfl
        | ⟨1, _⟩ => rfl
      rw [hsi]
      rfl
    show (columnGatherDims R A n wf).start (ix2 r k) idx (1 : Fin 2)
        + (columnGatherDims R A n wf).offCoord (ix2 r k) (1 : Fin 2) = min (idx (ix2 k 0)).toInt.toNat (A - 1)
    rw [hs, ho, Nat.add_zero]

end Cert.LibScatterAdd

end
-- ==== Proof.PreFacts.lean ====
/-
  What the precondition says, element by element.

  The precondition is a conjunction of three whole-array tests: every entry of `x` has absolute value below +∞, every
  coefficient has absolute value below +∞, and every input row index lies in [-2880, 2880). Each test is an `and`-reduction
  of an elementwise comparison, so the conjunction being true gives the comparison at every element: the entries of `x` and
  the coefficients are real numbers, and every row index, read as a signed word, lies in that range.

  Both programs first normalize a row index the way array indexing does, adding the axis length 2880 to a negative
  index. A signed word in [-2880, 2880) normalizes to a word in [0, 2880): a negative one gains 2880 without wrapping, a
  non-negative one is kept.
-/
import proofs.«400685_j40742059770569_1_alg».proof.Pre_finite_inputs
import Idealize.ShloMosaic.PureOps.Ideal
import Idealize.ShloMosaic.Lib.ReduceAll
import Idealize.ShloMosaic.Lib.ValueIdx

noncomputable section

namespace Cert.PreFacts

open Idealize.ShloMosaic Idealize.ShloMosaic.ValueIdx Cert.Pre_finite_inputs

variable [Cert.Pre_finite_inputs.Facts]

/-- An index word normalized as array indexing normalizes it: a negative word gains the axis length `len`. -/
def normalized (len v : BitVec 32) : BitVec 32 :=
  Scalar.select (IntOp.cmpi .slt v 0#32) (IntOp.addi v len) v

/-- A signed word in [-2880, 2880) normalizes into [0, 2880). -/
theorem normalized_range (v : BitVec 32) (h : -2880 ≤ v.toInt ∧ v.toInt < 2880) :
    0 ≤ (normalized 2880#32 v).toInt ∧ (normalized 2880#32 v).toInt < 2880 := by
  obtain ⟨hlo, hhi⟩ := h
  have h0 : (0#32 : BitVec 32).toInt = 0 := by decide
  have hlen : (2880#32 : BitVec 32).toInt = 2880 := by decide
  unfold normalized Scalar.select
  by_cases hneg : v.toInt < 0
  · -- a negative word: the test is true, and v + 2880 lies in [0, 2880), so the 32-bit sum does not wrap
    have hc : IntOp.cmpi .slt v 0#32 = 1 := IntOp.cmpi_slt.2 (by rw [h0]; exact hneg)
    rw [if_pos hc]
    have hadd : (IntOp.addi v 2880#32).toInt = v.toInt + 2880 := by
      unfold IntOp.addi
      rw [BitVec.toInt_add, hlen, Int.bmod_def]
      omega
    rw [hadd]; omega
  · -- a non-negative word: the test is false and the word is kept
    have hc : ¬ IntOp.cmpi .slt v 0#32 = 1 := fun hc => hneg (by have := IntOp.cmpi_slt.1 hc; rwa [h0] at this)
    rw [if_neg hc]; omega

/-- The result shape of a reduction over all axes has one index. -/
private instance : Subsingleton S_.Idx := ⟨fun a b => funext fun d => d.elim0⟩

/-- A comparison bit that is 1 came from a true comparison. -/
private theorem ofBool_eq_one {b : Bool} (h : BitVec.ofBool b = 1#1) : b = true := by
  cases b
  · exact absurd h (by decide)
  · rfl

/-- An extended real whose absolute value `max a (-a)` is below +∞ (the pattern 0x7F800000) is a real number:
    `a < ⊤` rules out ⊤, and `-a < ⊤` rules out ⊥. -/
private theorem real_of_abs_lt_inf (a : EReal)
    (h : Ideal.cmp .olt (max a (-a)) (Ideal.ofBits .f32 0x7F800000#32) = 1#1) : ∃ r : ℝ, a = (r : EReal) := by
  have hT : Ideal.ofBits .f32 0x7F800000#32 = ⊤ := by simp [Ideal.ofBits, Ideal.ieee]
  rw [hT] at h
  have hlt : max a (-a) < ⊤ := of_decide_eq_true (ofBool_eq_one h)
  obtain ⟨h1, h2⟩ := max_lt_iff.1 hlt
  have ht : a ≠ ⊤ := ne_of_lt h1
  have hb : a ≠ ⊥ := by
    rintro rfl
    exact absurd h2 (by simp)
  exact ⟨a.toReal, (EReal.coe_toReal ht hb).symm⟩

/-- The precondition, element by element: real entries, real coefficients, row indices in [-2880, 2880). -/
theorem elementwise (x : FVec Ideal S8192x2880 .f32) (cg : FVec Ideal S25600 .f32) (rin rout : IVec S25600 32)
    (h : Cert.Pre_finite_inputs.fn (F := Ideal) x cg rin rout = fun _ => 1#1) :
    (∀ i, ∃ r : ℝ, x i = (r : EReal)) ∧ (∀ k, ∃ r : ℝ, cg k = (r : EReal))
      ∧ ∀ k, -2880 ≤ (rin k).toInt ∧ (rin k).toInt < 2880 := by
  -- the precondition at its one index: a conjunction of three `and`-reductions
  have h0 := congrFun h ValueIdx.ix0
  dsimp only [fn] at h0
  obtain ⟨h12, h3⟩ := IntOp.andi_eq_one.1 h0
  obtain ⟨h1, h2⟩ := IntOp.andi_eq_one.1 h12
  -- each reduction being 1 gives its elementwise test at every index
  refine ⟨fun i => ?_, fun k => ?_, fun k => ?_⟩
  · exact real_of_abs_lt_inf (x i) (Host.reduce_andi_all _ _ _ _ _ h1 i)
  · exact real_of_abs_lt_inf (cg k) (Host.reduce_andi_all _ _ _ _ _ h2 k)
  · -- the broadcast constants read at index k are the words -2880 and 2880
    have e : IntOp.andi (IntOp.cmpi .sge (rin k) 4294964416#32) (IntOp.cmpi .slt (rin k) 2880#32) = 1#1 :=
      Host.reduce_andi_all _ _ _ _ _ h3 k
    obtain ⟨e1, e2⟩ := IntOp.andi_eq_one.1 e
    have e1' := IntOp.cmpi_sge.1 e1
    have e2' := IntOp.cmpi_slt.1 e2
    rw [show (4294964416#32 : BitVec 32).toInt = -2880 from by decide] at e1'
    rw [show (2880#32 : BitVec 32).toInt = 2880 from by decide] at e2'
    exact ⟨e1', e2'⟩

end Cert.PreFacts

end
-- ==== Proof.Spec.lean ====
/-
  The result both programs compute, as one function of the four argument arrays.

  Coefficient `k` carries a row word and a column word. Each is first normalized the way array indexing normalizes an
  index (a negative word gains the axis length: 2880 for rows of the coefficient matrix, 1600 for its columns).
  Entry `(n, j)` of the result is the neutral `0` plus, over the coefficients `k` whose normalized column is `j`, the
  entry of row `n` of `x` at coefficient `k`'s normalized row (clamped into the row, as a gather clamps) times the
  coefficient. A coefficient whose normalized column is outside `[0, 1600)` meets no `j` and contributes nothing.
-/
import proofs.«400685_j40742059770569_1_alg».proof.Proof.PreFacts
import Mathlib.Algebra.BigOperators.Group.Finset.Basic

noncomputable section

namespace Cert.Spec

open Idealize.ShloMosaic Idealize.ShloMosaic.ValueIdx
open Cert.PreFacts (normalized)
open scoped BigOperators

/-- Coefficient `k`'s normalized row, as a signed integer. -/
def rowOf (rin : IVec (⟨1, ![25600]⟩ : Shape) 32) (k : Fin 25600) : ℤ := (normalized 2880#32 (rin (ix1 k))).toInt

/-- Coefficient `k`'s normalized column, as a signed integer. -/
def colOf (rout : IVec (⟨1, ![25600]⟩ : Shape) 32) (k : Fin 25600) : ℤ := (normalized 1600#32 (rout (ix1 k))).toInt

/-- Entry `(n, j)` of the result. -/
def resultAt (x : (⟨2, ![8192, 2880]⟩ : Shape).Idx → EReal) (cg : (⟨1, ![25600]⟩ : Shape).Idx → EReal)
    (rin rout : IVec (⟨1, ![25600]⟩ : Shape) 32) (n : Fin 8192) (j : Fin 1600) : EReal :=
  Ideal.ofBits .f32 0x00000000#32
    + ∑ k : Fin 25600, if colOf rout k = (j.val : ℤ)
        then x (ix2 n ⟨min (rowOf rin k).toNat (2880 - 1), by omega⟩) * cg (ix1 k) else 0

/-- The result array. -/
def result (x : (⟨2, ![8192, 2880]⟩ : Shape).Idx → EReal) (cg : (⟨1, ![25600]⟩ : Shape).Idx → EReal)
    (rin rout : IVec (⟨1, ![25600]⟩ : Shape) 32) : (⟨2, ![8192, 1600]⟩ : Shape).Idx → EReal :=
  fun i => resultAt x cg rin rout ⟨(i 0).val, idx2_lt0 i⟩ ⟨(i 1).val, idx2_lt1 i⟩

theorem result_apply (x : (⟨2, ![8192, 2880]⟩ : Shape).Idx → EReal) (cg : (⟨1, ![25600]⟩ : Shape).Idx → EReal)
    (rin rout : IVec (⟨1, ![25600]⟩ : Shape) 32) (n : Fin 8192) (j : Fin 1600) :
    result x cg rin rout (ix2 n j) = resultAt x cg rin rout n j := rfl

end Cert.Spec

end
-- ==== Proof.CoeffMatrix.lean ====
/-
  The coefficient matrix the kernel's program builds before its matrix product.

  The program normalizes the row and column words of the coefficients, pairs them up as the rows of a `[25600, 2]` index
  array, and scatters the coefficients, accumulating, into a zero `[2880, 1600]` matrix at those pairs; the change of
  float format that follows is the identity on extended reals. So entry `(i, j)` of the matrix is `0` plus the sum of the
  coefficients whose normalized row is `i` and whose normalized column is `j`.
-/
import proofs.«400685_j40742059770569_1_alg».proof.Proof.Gen.KernelIdeal
import proofs.«400685_j40742059770569_1_alg».proof.Proof.LibScatterAdd
import proofs.«400685_j40742059770569_1_alg».proof.Proof.Spec
import Idealize.ShloMosaic.Lib.Pipeline.Value
import Idealize.ShloMosaic.PureOps.Ideal.Laws

noncomputable section

namespace Cert.CoeffMatrix

open Idealize.ShloMosaic Idealize.ShloMosaic.ValueIdx
open Cert.KernelIdeal Cert.KernelIdeal.Gen
open Cert.PreFacts (normalized)
open Cert.LibScatterAdd Cert.Spec
open scoped BigOperators

variable {F : FTy → Type} [FloatOps F]

/-- The row words, each normalized against the matrix's 2880 rows. -/
def rowWords (rin : (⟨S25600, .i32⟩ : BufTy).Contents (Elt F)) : (⟨S25600, .i32⟩ : BufTy).Contents (Elt F) :=
  select (cmpi .slt rin (broadcastInDim S25600 ![] bcast_S_S25600 (constantI S_ 32 0#32)))
    (addi rin (broadcastInDim S25600 ![] bcast_S_S25600 (constantI S_ 32 2880#32))) rin

/-- The column words, each normalized against the matrix's 1600 columns. -/
def colWords (rout : (⟨S25600, .i32⟩ : BufTy).Contents (Elt F)) : (⟨S25600, .i32⟩ : BufTy).Contents (Elt F) :=
  select (cmpi .slt rout (broadcastInDim S25600 ![] bcast_S_S25600 (constantI S_ 32 0#32)))
    (addi rout (broadcastInDim S25600 ![] bcast_S_S25600 (constantI S_ 32 1600#32))) rout

/-- The `[25600, 2]` array of (row, column) pairs. -/
def pairs (rin rout : (⟨S25600, .i32⟩ : BufTy).Contents (Elt F)) : (⟨S25600x2, .i32⟩ : BufTy).Contents (Elt F) :=
  concatenate S25600x2 1
    [⟨S25600x1, broadcastInDim S25600x1 ![0] bcast_S25600_S25600x1_0 (rowWords (F := F) rin)⟩,
     ⟨S25600x1, broadcastInDim S25600x1 ![0] bcast_S25600_S25600x1_0 (colWords (F := F) rout)⟩]
    concatenates_S25600x1_S25600x1_S25600x2_d1

/-- The coefficient matrix, in the narrower float format the matrix product reads it in. -/
def matrix (cg : (⟨S25600, .f32⟩ : BufTy).Contents (Elt F)) (rin rout : (⟨S25600, .i32⟩ : BufTy).Contents (Elt F)) :
    (⟨S2880x1600, .bf16⟩ : BufTy).Contents (Elt F) :=
  truncf .bf16
    (Host.scatterAdd scatter_S2880x1600_S25600x2_S25600_n_01_01_1
      (broadcastInDim S2880x1600 ![] bcast_S_S2880x1600 (constant S_ .f32 0x00000000#32)) (pairs (F := F) rin rout) cg)
    bitsLt_bf16_f32

/-- A scalar word broadcast to the coefficients' length reads that word everywhere. -/
theorem bcast_word (v : BitVec 32) (i : S25600.Idx) :
    broadcastInDim S25600 ![] bcast_S_S25600 (constantI S_ 32 v) i = v :=
  broadcastInDim_apply _ bcast_S_S25600 (constantI S_ 32 v) i (fun a => a.elim0) (fun a => a.elim0)

theorem rowWords_apply (rin : (⟨S25600, .i32⟩ : BufTy).Contents (Elt F)) (k : Fin 25600) :
    rowWords (F := F) rin (ix1 k) = normalized 2880#32 (rin (ix1 k)) := by
  show Scalar.select (IntOp.cmpi .slt (rin (ix1 k)) (broadcastInDim S25600 ![] bcast_S_S25600 (constantI S_ 32 0#32) (ix1 k)))
      (IntOp.addi (rin (ix1 k)) (broadcastInDim S25600 ![] bcast_S_S25600 (constantI S_ 32 2880#32) (ix1 k))) (rin (ix1 k)) = _
  rw [bcast_word, bcast_word]
  rfl

theorem colWords_apply (rout : (⟨S25600, .i32⟩ : BufTy).Contents (Elt F)) (k : Fin 25600) :
    colWords (F := F) rout (ix1 k) = normalized 1600#32 (rout (ix1 k)) := by
  show Scalar.select (IntOp.cmpi .slt (rout (ix1 k)) (broadcastInDim S25600 ![] bcast_S_S25600 (constantI S_ 32 0#32) (ix1 k)))
      (IntOp.addi (rout (ix1 k)) (broadcastInDim S25600 ![] bcast_S_S25600 (constantI S_ 32 1600#32) (ix1 k))) (rout (ix1 k)) = _
  rw [bcast_word, bcast_word]
  rfl

/-- A vector of words laid out as a one-column array reads entry `k` at `(k, 0)`. -/
theorem column_apply (v : (⟨S25600, .i32⟩ : BufTy).Contents (Elt F)) (k : Fin 25600) :
    broadcastInDim S25600x1 ![0] bcast_S25600_S25600x1_0 v (ix2 k 0) = v (ix1 k) :=
  broadcastInDim_apply _ bcast_S25600_S25600x1_0 v (ix2 k 0) (ix1 k) (fun a => match a with
    | ⟨0, _⟩ => by show k.val = if (25600 : Nat) = 1 then 0 else k.val; rw [if_neg (by decide)])

/-- The first component of pair `k` is coefficient `k`'s normalized row word; -/
theorem pairs_row (rin rout : (⟨S25600, .i32⟩ : BufTy).Contents (Elt F)) (k : Fin 25600) :
    pairs (F := F) rin rout (ix2 k 0) = normalized 2880#32 (rin (ix1 k)) := by
  unfold pairs
  refine (concatenate_pair_apply_left (t := S25600x2) (s₁ := S25600x1) (s₂ := S25600x1) (1 : Fin 2) _ _
    concatenates_S25600x1_S25600x1_S25600x2_d1 (ix2 k 0) rfl (ix2 k 0)
    (fun b => match b with | ⟨0, _⟩ => rfl | ⟨1, _⟩ => rfl)).trans ?_
  rw [column_apply, rowWords_apply]

/-- the second is its normalized column word. -/
theorem pairs_col (rin rout : (⟨S25600, .i32⟩ : BufTy).Contents (Elt F)) (k : Fin 25600) :
    pairs (F := F) rin rout (ix2 k 1) = normalized 1600#32 (rout (ix1 k)) := by
  unfold pairs
  refine (concatenate_pair_apply_right (t := S25600x2) (s₁ := S25600x1) (s₂ := S25600x1) (1 : Fin 2) _ _
    concatenates_S25600x1_S25600x1_S25600x2_d1 (ix2 k 1) rfl rfl (ix2 k 0)
    (fun b hb => match b, hb with
      | ⟨0, _⟩, _ => rfl
      | ⟨1, _⟩, hb => absurd rfl hb)
    rfl).trans ?_
  rw [column_apply, colWords_apply]

/-- ENTRY `(i, j)` OF THE MATRIX: `0` plus the coefficients whose normalized (row, column) is `(i, j)`. -/
theorem matrix_apply (cg : (⟨S25600, .f32⟩ : BufTy).Contents (Elt Ideal)) (rin rout : (⟨S25600, .i32⟩ : BufTy).Contents (Elt Ideal))
    (i : Fin 2880) (j : Fin 1600) :
    matrix (F := Ideal) cg rin rout (ix2 i j)
      = Ideal.ofBits .f32 0x00000000#32
        + ∑ k : Fin 25600, if rowOf rin k = (i.val : ℤ) ∧ colOf rout k = (j.val : ℤ) then cg (ix1 k) else 0 := by
  have e : matrix (F := Ideal) cg rin rout (ix2 i j)
      = Ideal.hostScatterAdd (pointDims 2880 1600 25600 scatter_S2880x1600_S25600x2_S25600_n_01_01_1_wf)
          (broadcastInDim S2880x1600 ![] bcast_S_S2880x1600 (constant (F := Ideal) S_ .f32 0x00000000#32))
          (pairs (F := Ideal) rin rout) cg (ix2 i j) := rfl
  rw [e, hostScatterAdd_point_apply]
  have hz : (broadcastInDim S2880x1600 ![] bcast_S_S2880x1600 (constant (F := Ideal) S_ .f32 0x00000000#32)) (ix2 i j)
      = Ideal.ofBits .f32 0x00000000#32 :=
    broadcastInDim_apply _ bcast_S_S2880x1600 (constant (F := Ideal) S_ .f32 0x00000000#32) (ix2 i j) (fun a => a.elim0)
      (fun a => a.elim0)
  rw [hz]
  refine congrArg (Ideal.ofBits .f32 0x00000000#32 + ·) ?_
  refine Finset.sum_congr rfl fun k _ => ?_
  rw [pairs_row, pairs_col]
  rfl

end Cert.CoeffMatrix

end
-- ==== Proof.SumLaw.lean ====
/-
  The one law of arithmetic that joins the two programs.

  A table of coefficients `c k`, each tagged with a row `ρ k` and a column condition `P k`, can be used in two ways.
  Either the coefficients are first accumulated into a matrix entry per row `i` (the sum of the `c k` whose row is `i` and
  whose column condition holds) and a vector `x` is then contracted against that column of the matrix; or each coefficient
  is multiplied by the entry of `x` its row names and the products whose column condition holds are summed. Over the real
  numbers the two agree: multiplication distributes over the inner sum, the double sum is exchanged, and for each `k` exactly
  one row `i` equals `ρ k`. The statement is over the extended reals at real arguments, with the neutral `0 +` both
  programs carry, and with the row of `x` spelt as the clamped natural number `min (ρ k).toNat (A - 1)`, which is `ρ k`
  itself when `0 ≤ ρ k < A`.
-/
import Mathlib.Data.EReal.Operations
import Mathlib.Algebra.BigOperators.Ring.Finset
import Mathlib.Algebra.BigOperators.Group.Finset.Sigma

noncomputable section

namespace Cert.SumLaw

open scoped BigOperators

/-- A finite sum of real numbers, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The law over the real numbers: distribute, exchange the two sums, and for each `k` keep the single row `i = ρ k`. -/
private theorem real_law {A n : ℕ} (hA : 0 < A) (x : Fin A → ℝ) (c : Fin n → ℝ) (ρ : Fin n → ℤ)
    (hρ : ∀ k, 0 ≤ ρ k ∧ ρ k < (A : ℤ)) (P : Fin n → Prop) [DecidablePred P] :
    ∑ i : Fin A, x i * ((0 : ℝ) + ∑ k : Fin n, if ρ k = (i.val : ℤ) ∧ P k then c k else 0)
      = (0 : ℝ) + ∑ k : Fin n, if P k then x ⟨min (ρ k).toNat (A - 1), by omega⟩ * c k else 0 := by
  simp only [zero_add, Finset.mul_sum]
  rw [Finset.sum_comm]
  refine Finset.sum_congr rfl (fun k _ => ?_)
  obtain ⟨h0, h1⟩ := hρ k
  by_cases hP : P k
  · have hidx : (ρ k).toNat < A := by omega
    rw [Finset.sum_eq_single (⟨(ρ k).toNat, hidx⟩ : Fin A)]
    · have hrow : ρ k = (((ρ k).toNat : ℕ) : ℤ) := by omega
      have hfin : (⟨min (ρ k).toNat (A - 1), by omega⟩ : Fin A) = ⟨(ρ k).toNat, hidx⟩ :=
        Fin.ext (by show min (ρ k).toNat (A - 1) = (ρ k).toNat; omega)
      rw [if_pos ⟨hrow, hP⟩, if_pos hP, hfin]
    · intro i _ hi
      have hne : ¬ (ρ k = (i.val : ℤ) ∧ P k) := by
        rintro ⟨h, _⟩
        exact hi (Fin.ext (by show i.val = (ρ k).toNat; omega))
      rw [if_neg hne, mul_zero]
    · intro h
      exact absurd (Finset.mem_univ _) h
  · have hne : ∀ i : Fin A, ¬ (ρ k = (i.val : ℤ) ∧ P k) := fun i h => hP h.2
    rw [if_neg hP]
    exact Finset.sum_eq_zero (fun i _ => by rw [if_neg (hne i), mul_zero])

/-- Contracting `x` against the accumulated matrix column equals summing the gathered products. -/
theorem contract_accumulated_eq_sum_gathered {A n : ℕ} (hA : 0 < A) (x : Fin A → ℝ) (c : Fin n → ℝ) (ρ : Fin n → ℤ)
    (hρ : ∀ k, 0 ≤ ρ k ∧ ρ k < (A : ℤ)) (P : Fin n → Prop) [DecidablePred P] :
    ∑ i : Fin A, (x i : EReal) * ((0 : EReal) + ∑ k : Fin n, if ρ k = (i.val : ℤ) ∧ P k then (c k : EReal) else 0)
      = (0 : EReal) + ∑ k : Fin n, if P k then (x ⟨min (ρ k).toNat (A - 1), by omega⟩ : EReal) * (c k : EReal) else 0 := by
  -- the left side is the reading of a real number
  have hL : ∑ i : Fin A, (x i : EReal) * ((0 : EReal) + ∑ k : Fin n, if ρ k = (i.val : ℤ) ∧ P k then (c k : EReal) else 0)
      = ((∑ i : Fin A, x i * ((0 : ℝ) + ∑ k : Fin n, if ρ k = (i.val : ℤ) ∧ P k then c k else 0) : ℝ) : EReal) := by
    rw [coe_sum]
    refine Finset.sum_congr rfl (fun i _ => ?_)
    rw [EReal.coe_mul, EReal.coe_add, EReal.coe_zero, coe_sum]
    refine congrArg (fun t => (x i : EReal) * ((0 : EReal) + t)) (Finset.sum_congr rfl (fun k _ => ?_))
    by_cases h : ρ k = (i.val : ℤ) ∧ P k
    · rw [if_pos h, if_pos h]
    · rw [if_neg h, if_neg h, EReal.coe_zero]
  -- and so is the right side
  have hR : (0 : EReal) + ∑ k : Fin n, (if P k then (x ⟨min (ρ k).toNat (A - 1), by omega⟩ : EReal) * (c k : EReal) else 0)
      = (((0 : ℝ) + ∑ k : Fin n, if P k then x ⟨min (ρ k).toNat (A - 1), by omega⟩ * c k else 0 : ℝ) : EReal) := by
    rw [EReal.coe_add, EReal.coe_zero, coe_sum]
    refine congrArg (fun t => (0 : EReal) + t) (Finset.sum_congr rfl (fun k _ => ?_))
    by_cases h : P k
    · rw [if_pos h, if_pos h, EReal.coe_mul]
    · rw [if_neg h, if_neg h, EReal.coe_zero]
  rw [hL, hR, real_law hA x c ρ hρ P]

end Cert.SumLaw

end
-- ==== Proof.Bridge.lean ====
/-
  The kernel's contraction against the coefficient matrix is the specified result.

  The kernel's result at `(n, j)` is the contraction of row `n` of `x` against column `j` of the coefficient matrix:
  the sum over the 2880 rows `i` of `x (n, i)` times the accumulated entry `(i, j)`. When every entry of `x` and every
  coefficient is a real number and every normalized row word lies in `[0, 2880)`, distributing `x (n, i)` over the
  accumulated entry and exchanging the two sums turns this into the sum, over the coefficients whose normalized column is
  `j`, of `x (n, row k) * c k`: the specification. Real arguments are what makes distributing legitimate; the row range
  is what makes the clamped row the specification reads equal to the row the matrix was accumulated at.
-/
import proofs.«400685_j40742059770569_1_alg».proof.Proof.CoeffMatrix
import proofs.«400685_j40742059770569_1_alg».proof.Proof.SumLaw

noncomputable section

namespace Cert.Bridge

open Idealize.ShloMosaic Idealize.ShloMosaic.ValueIdx
open Cert.KernelIdeal
open Cert.CoeffMatrix Cert.Spec
open scoped BigOperators

/-- Rows of `X` contracted against columns of `M`: a `[8192, 2880]` by `[2880, 1600]` matrix product. -/
def product (X : S8192x2880.Idx → EReal) (M : S2880x1600.Idx → EReal) : S8192x1600.Idx → EReal :=
  fun i => ∑ i' : Fin 2880, X (ix2 ⟨(i 0).val, idx2_lt0 i⟩ i') * M (ix2 i' ⟨(i 1).val, idx2_lt1 i⟩)

theorem product_apply (X : S8192x2880.Idx → EReal) (M : S2880x1600.Idx → EReal) (n : Fin 8192) (j : Fin 1600) :
    product X M (ix2 n j) = ∑ i' : Fin 2880, X (ix2 n i') * M (ix2 i' j) := rfl

/-- THE BRIDGE: on real arguments with in-range rows, the product against the coefficient matrix is the result. -/
theorem product_matrix_eq_result (X : S8192x2880.Idx → EReal) (cg : S25600.Idx → EReal) (rin rout : IVec S25600 32)
    (hX : ∀ i, ∃ r : ℝ, X i = (r : EReal)) (hc : ∀ k, ∃ r : ℝ, cg k = (r : EReal))
    (hrow : ∀ k : Fin 25600, 0 ≤ rowOf rin k ∧ rowOf rin k < 2880) :
    product X (matrix (F := Ideal) cg rin rout) = result X cg rin rout := by
  funext i
  obtain ⟨n, j, rfl⟩ : ∃ (n : Fin 8192) (j : Fin 1600), i = ix2 n j := ⟨i 0, i 1, eq_ix2 i⟩
  rw [result_apply, product_apply]
  unfold resultAt
  choose xr hxr using hX
  choose cr hcr using hc
  have hl : ∀ i' : Fin 2880, X (ix2 n i') * matrix (F := Ideal) cg rin rout (ix2 i' j)
      = (xr (ix2 n i') : EReal) * ((0 : EReal) + ∑ k : Fin 25600,
          if rowOf rin k = (i'.val : ℤ) ∧ colOf rout k = (j.val : ℤ) then (cr (ix1 k) : EReal) else 0) := by
    intro i'
    rw [matrix_apply, Ideal.ofBits_zero_f32, hxr]
    refine congrArg (fun s => (xr (ix2 n i') : EReal) * ((0 : EReal) + s)) ?_
    exact Finset.sum_congr rfl fun k _ => by rw [hcr]
  rw [Finset.sum_congr rfl fun i' _ => hl i', Ideal.ofBits_zero_f32]
  have hr : ∀ k : Fin 25600,
      (if colOf rout k = (j.val : ℤ) then X (ix2 n ⟨min (rowOf rin k).toNat (2880 - 1), by omega⟩) * cg (ix1 k) else 0)
        = (if colOf rout k = (j.val : ℤ)
            then (xr (ix2 n ⟨min (rowOf rin k).toNat (2880 - 1), by omega⟩) : EReal) * (cr (ix1 k) : EReal) else 0) := by
    intro k
    rw [hxr, hcr]
  rw [Finset.sum_congr rfl fun k _ => hr k]
  exact Cert.SumLaw.contract_accumulated_eq_sum_gathered (A := 2880) (n := 25600) (by decide)
    (fun i' => xr (ix2 n i')) (fun k => cr (ix1 k)) (rowOf rin) hrow (fun k => colOf rout k = (j.val : ℤ))

end Cert.Bridge

end
-- ==== Proof.KernelValue.lean ====
/-
  The kernel's program computes the product of `x` with the coefficient matrix.

  The pallas_call walks 32 grid points; point `t` stages rows `256 t … 256 t + 255` of `x` and the whole coefficient
  matrix, and its body stores the matrix product of the two staged blocks (accumulated into zero; the narrowing of the
  row block is the identity on extended reals). Read at `(p, q)` that product is the sum over the 2880 contracted
  positions of the row block's entry `(p, i)` times the matrix's entry `(i, q)`, which is entry
  `(256 t + p, q)` of the product of the whole arrays. Each point writes back rows `256 t … 256 t + 255` of the result,
  and row `r` belongs to point `r / 256`, so the 32 blocks cover the result array: after the run it is the product of
  `x` with the coefficient matrix the host prefix built.
-/
import proofs.«400685_j40742059770569_1_alg».proof.Proof.Gen.KernelIdeal.Value
import proofs.«400685_j40742059770569_1_alg».proof.Proof.Bridge
import Idealize.ShloMosaic.Lib.StableHlo.Run
import Idealize.ShloMosaic.Lib.Pipeline.Value
import Idealize.ShloMosaic.PureOps.Ideal.Laws

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value
open Cert.CoeffMatrix Cert.Bridge
open scoped BigOperators

/-! ## The body's matrix product at an entry -/

theorem lhs_row (j : S256x1600.Idx) (k : dot_S256x2880_S2880x1600_S256x1600_1_0_0_1_n_n.contr.Idx) :
    (dot_S256x2880_S2880x1600_S256x1600_1_0_0_1_n_n.lhsIdx j k 0 : ℕ) = j 0 := by
  simp [DotDims.lhsIdx, dot_S256x2880_S2880x1600_S256x1600_1_0_0_1_n_n]; rfl
theorem lhs_col (j : S256x1600.Idx) (k : dot_S256x2880_S2880x1600_S256x1600_1_0_0_1_n_n.contr.Idx) :
    (dot_S256x2880_S2880x1600_S256x1600_1_0_0_1_n_n.lhsIdx j k 1 : ℕ) = k ⟨0, by decide⟩ := by
  simp [DotDims.lhsIdx, dot_S256x2880_S2880x1600_S256x1600_1_0_0_1_n_n]; rfl
theorem rhs_row (j : S256x1600.Idx) (k : dot_S256x2880_S2880x1600_S256x1600_1_0_0_1_n_n.contr.Idx) :
    (dot_S256x2880_S2880x1600_S256x1600_1_0_0_1_n_n.rhsIdx j k 0 : ℕ) = k ⟨0, by decide⟩ := by
  simp [DotDims.rhsIdx, dot_S256x2880_S2880x1600_S256x1600_1_0_0_1_n_n]; rfl
theorem rhs_col (j : S256x1600.Idx) (k : dot_S256x2880_S2880x1600_S256x1600_1_0_0_1_n_n.contr.Idx) :
    (dot_S256x2880_S2880x1600_S256x1600_1_0_0_1_n_n.rhsIdx j k 1 : ℕ) = j 1 := by
  simp [DotDims.rhsIdx, dot_S256x2880_S2880x1600_S256x1600_1_0_0_1_n_n]; rfl

/-- The one contracted axis has 2880 positions. -/
def contracted : dot_S256x2880_S2880x1600_S256x1600_1_0_0_1_n_n.contr.Idx ≃ Fin 2880 :=
  contrEquiv1 dot_S256x2880_S2880x1600_S256x1600_1_0_0_1_n_n 2880 (by decide) (by decide)

theorem contracted_symm_val (i : Fin 2880) : ((contracted.symm i) ⟨0, by decide⟩ : ℕ) = i.val :=
  contrEquiv1_symm_val dot_S256x2880_S2880x1600_S256x1600_1_0_0_1_n_n 2880 (by decide) (by decide) i

/-- The stored payload at `(p, q)`: row `p` of the row block contracted against column `q` of the matrix block. -/
theorem payload_apply (x0 : FVec Ideal S256x2880 .f32) (x1 : FVec Ideal S2880x1600 .bf16) (p : Fin 256) (q : Fin 1600) :
    k0_pay1 (F := Ideal) x0 x1 (ix2 p q) = ∑ i : Fin 2880, x0 (ix2 p i) * x1 (ix2 i q) := by
  unfold k0_pay1
  rw [shapeCast_self]
  refine (Ideal.matmul_constant_zero_apply dot_S256x2880_S2880x1600_S256x1600_1_0_0_1_n_n none
    (truncf .bf16 x0 bitsLt_bf16_f32) x1 (ix2 p q)).trans ?_
  rw [← Equiv.sum_comp contracted.symm]
  refine Finset.sum_congr rfl fun i _ => ?_
  have hl : dot_S256x2880_S2880x1600_S256x1600_1_0_0_1_n_n.lhsIdx (ix2 p q) (contracted.symm i) = ix2 p i := by
    funext a; apply Fin.ext
    match a with
    | ⟨0, _⟩ => exact lhs_row _ _
    | ⟨1, _⟩ => exact (lhs_col _ _).trans (contracted_symm_val i)
  have hr : dot_S256x2880_S2880x1600_S256x1600_1_0_0_1_n_n.rhsIdx (ix2 p q) (contracted.symm i) = ix2 i q := by
    funext a; apply Fin.ext
    match a with
    | ⟨0, _⟩ => exact (rhs_row _ _).trans (contracted_symm_val i)
    | ⟨1, _⟩ => exact rhs_col _ _
  rw [hl, hr]
  rfl

variable (m : (ℓ : Loc nD τ sig) → Buf (Elt Ideal) ℓ) (ρ : Dev nD → PrngReg)

/-! ## The staged blocks, read off the arrays -/

theorem hz : (![0, 0] : Fin 2 → Nat) = fun _ => 0 := funext fun a => by fin_cases a <;> rfl

/-- The printed index maps over the 32 grid points: the row block of `x` and of the result move with the point, the
    matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := by
  have h : cfg0.N = 32 := N_0
  have := t.isLt
  omega

/-- `x` as the region finds it, at its literal type. -/
abbrev xarr (c : Dev nD) : S8192x2880.Idx → EReal := V m c main_arg0

/-- The coefficient matrix as the region finds it, at its literal type. -/
abbrev marr (c : Dev nD) : S2880x1600.Idx → EReal := V m c main_v15

/-- The product at an index whose coordinates are `n` and `j`. -/
theorem product_at (X : S8192x2880.Idx → EReal) (M : S2880x1600.Idx → EReal) (i : S8192x1600.Idx) (n : Fin 8192)
    (j : Fin 1600) (hn : (i 0).val = n.val) (hj : (i 1).val = j.val) :
    product X M i = ∑ i' : Fin 2880, X (ix2 n i') * M (ix2 i' j) := by
  have e : i = ix2 n j := by
    funext a; apply Fin.ext
    match a with
    | ⟨0, _⟩ => exact hn
    | ⟨1, _⟩ => exact hj
  rw [e]
  rfl

/-- Point `t`'s block of `x` holds rows `256 t … 256 t + 255`. -/
theorem x_block (c : Dev nD) (t : Fin cfg0.N) (p : Fin 256) (i : Fin 2880) :
    (iblk m c 0 t : Vec Ideal S256x2880 .f32) (ix2 p i)
      = xarr m c (ix2 ⟨256 * t.val + p.val, by have := point_lt t; omega⟩ i) := by
  obtain ⟨e0, e1, -, -, -, -⟩ := idx_facts t
  unfold iblk
  rw [View.read_apply]
  refine congrArg (V m c main_arg0) ?_
  funext a; apply Fin.ext
  match a with
  | ⟨0, _⟩ => show win0_0.index t (0 : Fin 2) * 256 + 1 * p.val = 256 * t.val + p.val; rw [e0]; omega
  | ⟨1, _⟩ => show win0_0.index t (1 : Fin 2) * 2880 + 1 * i.val = i.val; rw [e1]; omega

/-- Every point's block of the coefficient matrix is the whole matrix. -/
theorem m_block (c : Dev nD) (t : Fin cfg0.N) (i : Fin 2880) (q : Fin 1600) :
    (iblk m c 1 t : Vec Ideal S2880x1600 .bf16) (ix2 i q) = marr m c (ix2 i q) := by
  obtain ⟨-, -, e2, e3, -, -⟩ := idx_facts t
  unfold iblk
  rw [View.read_apply]
  refine congrArg (V m c main_v15) ?_
  funext a; apply Fin.ext
  match a with
  | ⟨0, _⟩ => show win0_1.index t (0 : Fin 2) * 2880 + 1 * i.val = i.val; rw [e2]; omega
  | ⟨1, _⟩ => show win0_1.index t (1 : Fin 2) * 1600 + 1 * q.val = q.val; rw [e3]; omega

/-! ## From blocks to the array -/

/-- WHAT POINT `t` WRITES BACK is block `t` of the product of the arrays as the region finds them. -/
theorem flushed_eq (c : Dev nD) (t : Fin cfg0.N) :
    (dats m 0 c).flushed 2 t
      = ((cfg0.win 2).blk t).view.read (Elt Ideal) (product (xarr m c) (marr m c)) := by
  obtain ⟨-, -, -, -, e4, e5⟩ := idx_facts t
  rw [flushed2]
  unfold out0_2
  rw [View.canon_unit_zero hz]
  simp only [View.ld_unit_zero (S := S256x2880) hz, View.ld_unit_zero (S := S2880x1600) hz]
  funext y
  obtain ⟨p, q, rfl⟩ : ∃ (p : Fin 256) (q : Fin 1600), y = ix2 p q := ⟨y 0, y 1, eq_ix2 y⟩
  show k0_pay1 (F := Ideal) (iblk m c 0 t) (iblk m c 1 t) (ix2 p q)
    = product (xarr m c) (marr m c) (((cfg0.win 2).blk t).view.emb (ix2 p q))
  have hp : ((((cfg0.win 2).blk t).view.emb (ix2 p q)) 0).val = 256 * t.val + p.val := by
    show win0_2.index t (0 : Fin 2) * 256 + 1 * p.val = 256 * t.val + p.val
    rw [e4]; omega
  have hq : ((((cfg0.win 2).blk t).view.emb (ix2 p q)) 1).val = q.val := by
    show win0_2.index t (1 : Fin 2) * 1600 + 1 * q.val = q.val
    rw [e5]; omega
  refine ((payload_apply (iblk m c 0 t) (iblk m c 1 t) p q).trans ?_).trans
    (product_at (xarr m c) (marr m c) (((cfg0.win 2).blk t).view.emb (ix2 p q))
      ⟨256 * t.val + p.val, by have := point_lt t; omega⟩ q hp hq).symm
  exact Finset.sum_congr rfl fun i _ => by rw [x_block m c t p i, m_block m c t i q]

/-- An index of the result is in point `t`'s block iff each coordinate is in the block's range on its axis. -/
theorem mem_blk (t : Fin cfg0.N) (i : S8192x1600.Idx) :
    i ∈ ((cfg0.win 2).blk t).view.set ↔ ∀ a : Fin 2, win0_2.index t a * S256x1600.size a ≤ (i a).val
      ∧ (i a).val < win0_2.index t a * S256x1600.size a + S256x1600.size a := by
  show i ∈ ((View.whole main_v16).slice (win0_2.rect t)).set ↔ _
  rw [View.set_slice_whole, Rect.mem_set_unit]
  exact Iff.rfl

/-- Row `r` of the result lies in the block of point `r / 256`: the 32 blocks cover the array. -/
theorem cover (i : S8192x1600.Idx) :
    ∃ t : Fin cfg0.N, (cfg0.win 2).flush t = true ∧ i ∈ ((cfg0.win 2).blk t).view.set := by
  have hi0 : (i 0).val < 8192 := idx2_lt0 i
  have hi1 : (i 1).val < 1600 := idx2_lt1 i
  have hN : cfg0.N = 32 := N_0
  have ht : (i 0).val / 256 < cfg0.N := by rw [hN]; omega
  obtain ⟨-, -, -, -, e4, e5⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ (0 : Fin 2) * 256 ≤ (i 0).val
      ∧ (i 0).val < win0_2.index ⟨(i 0).val / 256, ht⟩ (0 : Fin 2) * 256 + 256
    rw [e4]
    show (i 0).val / 256 * 256 ≤ (i 0).val ∧ (i 0).val < (i 0).val / 256 * 256 + 256
    omega
  | ⟨1, _⟩ =>
    show win0_2.index ⟨(i 0).val / 256, ht⟩ (1 : Fin 2) * 1600 ≤ (i 1).val
      ∧ (i 1).val < win0_2.index ⟨(i 0).val / 256, ht⟩ (1 : Fin 2) * 1600 + 1600
    rw [e5]
    omega

/-- THE RESULT ARRAY after the run: the product of the arrays as the region finds them. -/
theorem final (c : Dev nD) : (dats m 0 c).arrAt 2 cfg0.N = product (xarr m c) (marr m c) :=
  (dats m 0 c).arrAt_eq_of_cover 2 (product (xarr m c) (marr m c)) (fun t _ => flushed_eq m c t) cover

/-- `x` reaches the region as launched. -/
theorem xarr_eq (c : Dev nD) : xarr m c = m ((c : Thread nD τ).loc main_arg0) := V_main_arg0 m c

/-! ## The host prefix, and the run -/

/-- The region finds the coefficient matrix the host prefix built from the three table arguments. -/
theorem marr_eq (c : Dev nD) :
    marr m c
      = matrix (F := Ideal) (m ((c : Thread nD τ).loc main_arg1)) (m ((c : Thread nD τ).loc main_arg2))
          (m ((c : Thread nD τ).loc main_arg3)) := by
  show V m c main_v15 = _
  dsimp only [V, hostOps0]
  after_results
  rfl

/-- The run, read: the result array ends at the product of `x` with the coefficient matrix, the arguments unchanged. -/
theorem run : θ_run defs (onTc (τ := τ) (main (F := Ideal))) ⟨m, fun _ => 0, ρ⟩ fun r => ∀ c : Dev nD,
      r.2.mem ((c : Thread nD τ).loc main_v16)
        = product (m ((c : Thread nD τ).loc main_arg0))
            (matrix (F := Ideal) (m ((c : Thread nD τ).loc main_arg1)) (m ((c : Thread nD τ).loc main_arg2))
              (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans ((final m c).trans (by rw [xarr_eq, marr_eq])), (h c).2⟩)
    (run_blocks m ρ)

end Cert.KernelValue

end
-- ==== Proof.RefValue.lean ====
/-
  The reference program computes the specified result.

  The reference normalizes the row and column words, gathers the columns of `x` the row words name (clamping), multiplies
  column `k` of the gathered array by coefficient `k`, and scatters the products' columns, accumulating, into a zero array
  at the column words. Read at entry `(n, j)` the accumulating scatter is `0` plus the sum over the coefficients whose
  normalized column is `j` of the product's entry `(n, k)`, and that entry is `x (n, row k) * c k`: the specification.
-/
import proofs.«400685_j40742059770569_1_alg».proof.Proof.Gen.ReferenceIdeal.Read
import proofs.«400685_j40742059770569_1_alg».proof.Proof.LibScatterAdd
import proofs.«400685_j40742059770569_1_alg».proof.Proof.Spec
import Idealize.ShloMosaic.PureOps.Ideal.Laws

noncomputable section

namespace Cert.RefValue

open Idealize.ShloMosaic Idealize.ShloMosaic.ValueIdx
open Cert.ReferenceIdeal Cert.ReferenceIdeal.Gen Cert.ReferenceIdeal.Read
open Cert.PreFacts (normalized)
open Cert.LibScatterAdd Cert.Spec
open scoped BigOperators

variable {F : FTy → Type} [FloatOps F]

/-- The row word the gather reads for coefficient `k` is `k`'s input row word, normalized against 2880. -/
theorem row_word (rin : (⟨S25600, .i32⟩ : BufTy).Contents (Elt F)) (k : Fin 25600) :
    val_main_v5 (F := F) rin (ix2 k 0) = normalized 2880#32 (rin (ix1 k)) := by
  have e : idx_main_v5 (ix2 k (0 : Fin 1)) = ix1 k := by
    funext a; match a with | ⟨0, _⟩ => rfl
  rw [val_main_v5_apply, e, val_main_v4_apply, val_main_v1_apply, val_main_v3_apply, val_main_v0_apply,
    val_main_v2_apply, val_main_c_apply, val_main_c_0_apply]
  rfl

/-- The column word the scatter reads for coefficient `k` is `k`'s input column word, normalized against 1600. -/
theorem col_word (rout : (⟨S25600, .i32⟩ : BufTy).Contents (Elt F)) (k : Fin 25600) :
    val_main_v16 (F := F) rout (ix2 k 0) = normalized 1600#32 (rout (ix1 k)) := by
  have e : idx_main_v16 (ix2 k (0 : Fin 1)) = ix1 k := by
    funext a; match a with | ⟨0, _⟩ => rfl
  rw [val_main_v16_apply, e, val_main_v15_apply, val_main_v12_apply, val_main_v14_apply, val_main_v11_apply,
    val_main_v13_apply, val_main_c_1_apply, val_main_c_2_apply]
  rfl

/-- The array scattered into is zero everywhere. -/
theorem zero_entry (i : S8192x1600.Idx) : val_main_v10 (F := Ideal) i = Ideal.ofBits .f32 0x00000000#32 := by
  rw [val_main_v10_apply, val_main_cst_apply]
  rfl

/-- The coefficient row broadcast down the rows: entry `(n, k)` is coefficient `k`. -/
theorem coeff_entry (cg : (⟨S25600, .f32⟩ : BufTy).Contents (Elt F)) (n : Fin 8192) (k : Fin 25600) :
    val_main_v8 (F := F) cg (ix2 n k) = cg (ix1 k) := by
  have e : idx_main_v7 (idx_main_v8 (ix2 n k)) = ix1 k := by
    funext a; match a with | ⟨0, _⟩ => rfl
  rw [val_main_v8_apply, val_main_v7_apply, e]

/-- Entry `(n, k)` of the products: row `n` of `x` at coefficient `k`'s normalized (clamped) row, times coefficient `k`. -/
theorem product_entry (x : (⟨S8192x2880, .f32⟩ : BufTy).Contents (Elt Ideal)) (cg : (⟨S25600, .f32⟩ : BufTy).Contents (Elt Ideal))
    (rin : (⟨S25600, .i32⟩ : BufTy).Contents (Elt Ideal)) (n : Fin 8192) (k : Fin 25600) :
    val_main_v9 (F := Ideal) x cg rin (ix2 n k)
      = x (ix2 n ⟨min (rowOf rin k).toNat (2880 - 1), by omega⟩) * cg (ix1 k) := by
  rw [val_main_v9_apply, coeff_entry]
  have g : val_main_v6 (F := Ideal) x rin (ix2 n k)
      = x (ix2 n ⟨min (val_main_v5 (F := Ideal) rin (ix2 k 0)).toInt.toNat (2880 - 1), by omega⟩) :=
    gather_column_apply (R := 8192) (A := 2880) (n := 25600) (by decide)
      gather_S8192x2880_S25600x1_S8192x25600_0_1_n_n_1_1_81921_wf x (val_main_v5 (F := Ideal) rin) n k
  rw [g]
  simp only [row_word]
  rfl

/-- THE REFERENCE'S RESULT is the specified one. -/
theorem reference_eq_result (x : (⟨S8192x2880, .f32⟩ : BufTy).Contents (Elt Ideal)) (cg : (⟨S25600, .f32⟩ : BufTy).Contents (Elt Ideal))
    (rin rout : (⟨S25600, .i32⟩ : BufTy).Contents (Elt Ideal)) :
    val_main_v17 (F := Ideal) x cg rin rout = result x cg rin rout := by
  funext i
  obtain ⟨n, j, rfl⟩ : ∃ (n : Fin 8192) (j : Fin 1600), i = ix2 n j := ⟨i 0, i 1, eq_ix2 i⟩
  rw [result_apply]
  have h : val_main_v17 (F := Ideal) x cg rin rout (ix2 n j)
      = val_main_v10 (F := Ideal) (ix2 n j) + ∑ k : Fin 25600,
          if (val_main_v16 (F := Ideal) rout (ix2 k 0)).toInt = (j.val : ℤ)
            then val_main_v9 (F := Ideal) x cg rin (ix2 n k) else 0 :=
    hostScatterAdd_column_apply (R := 8192) (B := 1600) (n := 25600)
      scatter_S8192x1600_S25600x1_S8192x25600_0_1_1_1_wf (val_main_v10 (F := Ideal)) (val_main_v16 (F := Ideal) rout)
      (val_main_v9 (F := Ideal) x cg rin) n j
  rw [h, zero_entry]
  unfold resultAt
  refine congrArg (Ideal.ofBits .f32 0x00000000#32 + ·) ?_
  refine Finset.sum_congr rfl fun k _ => ?_
  rw [col_word, product_entry]
  rfl

end Cert.RefValue

end
-- ==== Proof.lean ====
/-
  The kernel and the reference compute the same [8192, 1600] array from x : [8192, 2880], 25600 coefficients and their
  row and column words, whenever x and the coefficients are finite and every row word lies in [-2880, 2880).

  The reference gathers, for each coefficient k, the column of x its (normalized) row word names, scales it by the
  coefficient, and accumulates the scaled columns into the result at the (normalized) column words. The kernel first
  accumulates the coefficients into a [2880, 1600] matrix at their (row, column) pairs and then multiplies x by that
  matrix, 256 rows per grid point. Entry (n, j) of either is the sum over the coefficients k with column j of
  x (n, row k) * c k: for the reference directly (RefValue), for the kernel after distributing x (n, i) over the
  accumulated matrix entry and exchanging the two sums (KernelValue, Bridge, SumLaw). Distributing needs real factors,
  which the finiteness of the inputs gives; and the two programs treat a row word outside the matrix differently (the
  gather clamps it, the accumulation drops it), which is why the row words are taken in range (PreFacts). A column word
  outside [0, 1600) is dropped by both.

  The three frames are the generated ones; the reference's is its generated run with the result forgotten. The kernel's
  idealization rewrote nothing, so there is nothing to preserve.
-/
import proofs.«400685_j40742059770569_1_alg».proof.Defs
import proofs.«400685_j40742059770569_1_alg».proof.Proof.Gen.Kernel
import proofs.«400685_j40742059770569_1_alg».proof.Proof.Gen.Kernel.Skeleton
import proofs.«400685_j40742059770569_1_alg».proof.Proof.Gen.Kernel.Launch
import proofs.«400685_j40742059770569_1_alg».proof.Proof.Gen.Kernel.Points
import proofs.«400685_j40742059770569_1_alg».proof.Proof.Gen.Kernel.Frame
import proofs.«400685_j40742059770569_1_alg».proof.Proof.Gen.KernelIdeal
import proofs.«400685_j40742059770569_1_alg».proof.Proof.Gen.KernelIdeal.Skeleton
import proofs.«400685_j40742059770569_1_alg».proof.Proof.Gen.KernelIdeal.Launch
import proofs.«400685_j40742059770569_1_alg».proof.Proof.Gen.KernelIdeal.Points
import proofs.«400685_j40742059770569_1_alg».proof.Proof.Gen.KernelIdeal.Frame
import proofs.«400685_j40742059770569_1_alg».proof.Proof.Gen.ReferenceIdeal
import proofs.«400685_j40742059770569_1_alg».proof.Proof.Gen.Pre_finite_inputs
import proofs.«400685_j40742059770569_1_alg».proof.Proof.Gen.KernelIdeal.Value
import proofs.«400685_j40742059770569_1_alg».proof.Proof.Gen.ReferenceIdeal.Run
import proofs.«400685_j40742059770569_1_alg».proof.Proof.Gen.ReferenceIdeal.Read
import proofs.«400685_j40742059770569_1_alg».proof.Proof.KernelValue
import proofs.«400685_j40742059770569_1_alg».proof.Proof.RefValue
import Idealize.ShloMosaic.Adequacy
import Idealize.ShloMosaic.Init

noncomputable section

namespace Cert.Proof

open Idealize.ShloMosaic Idealize.SL.Sem Idealize.ShloMosaic.ValueIdx

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specified result of the kernel's arguments. -/
theorem algebraic : Cert.algebraic_KernelIdeal_ReferenceIdeal := by
  intro m ρ m' ρ' hpre hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · -- the kernel: the product with the coefficient matrix, which on these arguments is the result
    refine (θ_run Cert.KernelIdeal.defs _ _).mono (fun r h c => ⟨?_, (h c).2⟩) (Cert.KernelValue.run m ρ)
    obtain ⟨hx, hc, hr⟩ := Cert.PreFacts.elementwise _ _ _ _ (hpre c)
    rw [(h c).1]
    exact Cert.Bridge.product_matrix_eq_result _ _ _ _ hx hc
      (fun k => Cert.PreFacts.normalized_range _ (hr (ix1 k)))
  · -- the reference: the result of its own arguments, which agree with the kernel's
    refine (θ_run Cert.ReferenceIdeal.defs _ _).mono (fun r h c => ⟨?_, (h c).2⟩)
      (Cert.ReferenceIdeal.Value.run (F := Ideal) m' ρ')
    rw [(h c).1, Cert.ReferenceIdeal.Read.val_main_v17_eq, Cert.RefValue.reference_eq_result,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
